-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : FVec F S4096x1024 .f32) (main_v13 : IVec S_ 1) (main_v15 : IVec S4096x1024 1) (main_c_5 : IVec S_ 1) : IVec S_ 1 :=
  let main_v16 : IVec S_ 1 := (fun x v => Host.reduce IntOp.andi x v reducesTo_S4096x1024_S_d0_1 h_S_) main_v15 main_c_5
  let main_v17 : IVec S_ 1 := andi main_v13 main_v16
  let main_cst_6 : FVec F S_ .f32 := constant S_ .f32 0x00000000#32
  let main_v18 : FVec F S4096x1024 .f32 := broadcastInDim S4096x1024 ![] bcast_S_S4096x1024 main_cst_6
  let main_v19 : IVec S4096x1024 1 := cmpf .ogt main_arg1 main_v18
  let main_c_7 : IVec S_ 1 := constantI S_ 1 1#1
  let main_v20 : IVec S_ 1 := (fun x v => Host.reduce IntOp.andi x v reducesTo_S4096x1024_S_d0_1 h_S_) main_v19 main_c_7
  let main_v21 : IVec S_ 1 := andi main_v17 main_v20
  main_v21

def fn {F : FTy → Type} [FloatOps F] (main_arg0 : FVec F S4096x1024 .f32) (main_arg1 : FVec F S4096x1024 .f32) (main_arg2 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_cst_4 : FVec F S_ .f32 := constant S_ .f32 0x00000000#32
  let main_v14 : FVec F S4096x1024 .f32 := broadcastInDim S4096x1024 ![] bcast_S_S4096x1024 main_cst_4
  let main_v15 : IVec S4096x1024 1 := cmpf .ogt main_arg0 main_v14
  let main_c_5 : IVec S_ 1 := constantI S_ 1 1#1
  fn_part1 (F := F) main_arg1 main_v13 main_v15 main_c_5
-- ==== Kernel.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S256x1024 : Shape := ⟨2, ![256, 1024]⟩
abbrev S256x4096 : Shape := ⟨2, ![256, 4096]⟩
abbrev S256x1 : Shape := ⟨2, ![256, 1]⟩
abbrev S256 : Shape := ⟨1, ![256]⟩

abbrev nBuf : Space → Nat
  | .hbm => 26
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1024, .bf16⟩
  | .hbm, ⟨16, _⟩ => ⟨S4096x1024, .bf16⟩
  | .hbm, ⟨17, _⟩ => ⟨S1x4096, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S4096x1024_S4096_d1 : S4096x1024.ReducesTo [1] S4096
  h_S_ : 0 < S_.numel
  bcast_S_S4096 : S_.BroadcastsInDim S4096 (![] : Fin 0 → Fin S4096.rank)
  bitsLt_bf16_f32 : FTy.bits .bf16 < FTy.bits .f32
  shapeCasts_S4096_S1x4096 : S4096.ShapeCasts S1x4096
  shapeCasts_S4096_S4096x1 : S4096.ShapeCasts S4096x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S4096x1_S4096 : S4096x1.ShapeCasts S4096
  reducesTo_S4096_S_d0 : S4096.ReducesTo [0] S_
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v9) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S1024x4096 : Shape := ⟨2, ![1024, 4096]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S1024x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S_S4096 : S_.BroadcastsInDim S4096 (![] : Fin 0 → Fin S4096.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibRealValued.lean ====
/-
  Arrays of extended reals that hold only real numbers.

  At the ideal values a float is an extended real, and an algebraic identity between two ways of
  computing a softmax holds for REAL logits only (at an infinite logit a difference of infinities is a
  convention, not a number). This file names the property "every entry is a real number" and proves
  that each operation a graph-convolution network is made of keeps it: sums, differences, products and
  maxima of entries, constants, re-indexings (broadcasts, shape casts, transposes, gathers), scattered
  sums, contractions, integers read as floats, and the inverse square root of a node's degree.
-/
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost

namespace RealValued

open Idealize.ShloMosaic
open scoped BigOperators

/-! ## The property -/

/-- An array of extended reals every entry of which is a real number. -/
def IsReal {ι : Type*} (v : ι → EReal) : Prop := ∀ i, ∃ r : ℝ, v i = (r : EReal)

/-- An array is real-valued exactly when no entry is an infinity. -/
theorem isReal_iff_ne {ι : Type*} (v : ι → EReal) : IsReal v ↔ ∀ i, v i ≠ ⊤ ∧ v i ≠ ⊥ := by
  constructor
  · intro h i
    obtain ⟨r, hr⟩ := h i
    rw [hr]
    exact ⟨EReal.coe_ne_top r, EReal.coe_ne_bot r⟩
  · intro h i
    exact ⟨(v i).toReal, (EReal.coe_toReal (h i).1 (h i).2).symm⟩

/-- What a finiteness precondition gives: an array with no infinite entry is real-valued. -/
theorem isReal_of_finite {ι : Type*} {x : ι → EReal} (h : ∀ i, x i ≠ ⊤ ∧ x i ≠ ⊥) : IsReal x :=
  (isReal_iff_ne x).mpr h

/-- An entry of a real-valued array is not `⊤`. -/
theorem IsReal.ne_top {ι : Type*} {v : ι → EReal} (h : IsReal v) (i : ι) : v i ≠ ⊤ :=
  ((isReal_iff_ne v).mp h i).1

/-- An entry of a real-valued array is not `⊥`. -/
theorem IsReal.ne_bot {ι : Type*} {v : ι → EReal} (h : IsReal v) (i : ι) : v i ≠ ⊥ :=
  ((isReal_iff_ne v).mp h i).2

/-- An entry of a real-valued array is the embedding of its real part. -/
theorem IsReal.coe_toReal {ι : Type*} {v : ι → EReal} (h : IsReal v) (i : ι) : ((v i).toReal : EReal) = v i :=
  EReal.coe_toReal (h.ne_top i) (h.ne_bot i)

/-- An array whose absolute values `max a (-a)` all lie below `⊤` is real-valued: `|a| < ⊤` excludes both
    infinities, since `|⊤| = |⊥| = ⊤`. -/
theorem isReal_of_abs_lt_top {ι : Type*} {x : ι → EReal} (h : ∀ i, max (x i) (-(x i)) < ⊤) : IsReal x := by
  refine isReal_of_finite fun i => ⟨?_, ?_⟩
  · intro e; have := h i; rw [e] at this; simp at this
  · intro e; have := h i; rw [e] at this; simp at this

/-! ## Real numbers are closed under the field operations and the lattice operations -/

/-- The sum of two real numbers is a real number. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

/-- The difference of two real numbers is a real number. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

/-- The product of two real numbers is a real number. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

/-- The negation of a real number is a real number. -/
theorem real_neg {a : EReal} (ha : ∃ r : ℝ, a = (r : EReal)) : ∃ r : ℝ, -a = (r : EReal) := by
  obtain ⟨p, rfl⟩ := ha
  exact ⟨-p, (EReal.coe_neg p).symm⟩

/-- The greater of two real numbers is a real number. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The lesser of two real numbers is a real number. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- A finite sum of real numbers is a real number (induction on the index set: the empty sum is `0`, and a
    sum of two reals is real). -/
theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h

/-- The same over a whole finite type. -/
theorem isReal_sum_univ {κ : Type*} [Fintype κ] (f : κ → EReal) (h : ∀ k, ∃ r : ℝ, f k = (r : EReal)) :
    ∃ r : ℝ, ∑ k, f k = (r : EReal) :=
  isReal_sum Finset.univ f fun k _ => h k

/-! ## The elementwise operations -/

section Elementwise
variable {s : Shape} {φ : FTy}

/-- The elementwise sum of two real-valued arrays is real-valued. -/
theorem isReal_addf {x y : FVec Ideal s φ} (hx : IsReal x) (hy : IsReal y) : IsReal (addf (F := Ideal) x y) :=
  fun i => real_add (hx i) (hy i)

/-- The elementwise difference of two real-valued arrays is real-valued. -/
theorem isReal_subf {x y : FVec Ideal s φ} (hx : IsReal x) (hy : IsReal y) : IsReal (subf (F := Ideal) x y) :=
  fun i => real_sub (hx i) (hy i)

/-- The elementwise product of two real-valued arrays is real-valued. -/
theorem isReal_mulf {x y : FVec Ideal s φ} (hx : IsReal x) (hy : IsReal y) : IsReal (mulf (F := Ideal) x y) :=
  fun i => real_mul (hx i) (hy i)

/-- The elementwise maximum of two real-valued arrays is real-valued. -/
theorem isReal_maximumf {x y : FVec Ideal s φ} (hx : IsReal x) (hy : IsReal y) :
    IsReal (maximumf (F := Ideal) x y) :=
  fun i => real_max (hx i) (hy i)

/-- The elementwise minimum of two real-valued arrays is real-valued. -/
theorem isReal_minimumf {x y : FVec Ideal s φ} (hx : IsReal x) (hy : IsReal y) :
    IsReal (minimumf (F := Ideal) x y) :=
  fun i => real_min (hx i) (hy i)

/-- The elementwise negation of a real-valued array is real-valued. -/
theorem isReal_negf {x : FVec Ideal s φ} (hx : IsReal x) : IsReal (negf (F := Ideal) x) :=
  fun i => real_neg (hx i)

/-- The host's elementwise negation of a real-valued array is real-valued. -/
theorem isReal_hostNegf {x : FVec Ideal s φ} (hx : IsReal x) : IsReal (Host.negf (F := Ideal) x) :=
  fun i => real_neg (hx i)

end Elementwise

/-! ## Constants -/

section Constants
variable {s : Shape} {φ : FTy}

/-- A constant array whose bit pattern denotes a real number is real-valued. -/
theorem isReal_const_of {w : BitVec φ.bits} {r : ℝ} (h : Ideal.ofBits φ w = (r : EReal)) :
    IsReal (constant (F := Ideal) s φ w) :=
  fun _ => ⟨r, h⟩

/-- The f32 pattern of `4096.0` (sign 0, exponent 139, fraction 0: `2 ^ 12`) denotes the real `4096`. -/
theorem ofBits_4096_f32 : Ideal.ofBits .f32 0x45800000#32 = ((4096 : ℝ) : EReal) := by
  simp [Ideal.ofBits, Ideal.ieee, -EReal.coe_mul]; norm_num

/-- The f32 pattern `0x358637BD` (the float nearest `1e-6`: sign 0, exponent 107, fraction `0x0637BD`)
    denotes the real `(2 ^ 23 + 407485) · 2 ^ (-43)`. -/
theorem ofBits_1em6_f32 :
    Ideal.ofBits .f32 0x358637BD#32 = (((8796093 : ℝ) * (2 : ℝ) ^ (-43 : ℤ) : ℝ) : EReal) := by
  simp [Ideal.ofBits, Ideal.ieee, -EReal.coe_mul]

/-- The constant `0.0` array is real-valued. -/
theorem isReal_const_zero : IsReal (constant (F := Ideal) s .f32 0x00000000#32) :=
  isReal_const_of (r := 0) Ideal.ofBits_zero_f32

/-- The constant `1.0` array is real-valued. -/
theorem isReal_const_one : IsReal (constant (F := Ideal) s .f32 0x3F800000#32) :=
  isReal_const_of (r := 1) Ideal.ofBits_one_f32

/-- The constant `4096.0` array is real-valued. -/
theorem isReal_const_4096 : IsReal (constant (F := Ideal) s .f32 0x45800000#32) :=
  isReal_const_of ofBits_4096_f32

/-- The constant array of the float nearest `1e-6` is real-valued. -/
theorem isReal_const_1em6 : IsReal (constant (F := Ideal) s .f32 0x358637BD#32) :=
  isReal_const_of ofBits_1em6_f32

/-- Every entry of the constant `1.0` array is `1`. -/
theorem const_one_apply (i : s.Idx) : constant (F := Ideal) s .f32 0x3F800000#32 i = 1 :=
  Ideal.ofBits_one_f32

/-- Every entry of the constant `0.0` array is `0`. -/
theorem const_zero_apply (i : s.Idx) : constant (F := Ideal) s .f32 0x00000000#32 i = 0 :=
  Ideal.ofBits_zero_f32

end Constants

/-! ## Re-indexings: every entry of the result is an entry of the operand -/

section Reindex
variable {s t : Shape}

/-- An array read through any map of indices is real-valued when the array is. -/
theorem isReal_comp {ι κ : Type*} {x : ι → EReal} (hx : IsReal x) (f : κ → ι) : IsReal fun j => x (f j) :=
  fun j => hx (f j)

/-- A broadcast along dimensions of a real-valued array is real-valued. -/
theorem isReal_broadcastInDim {dims : Fin s.rank → Fin t.rank} {h : s.BroadcastsInDim t dims} {x : s.Idx → EReal}
    (hx : IsReal x) : IsReal (broadcastInDim t dims h x) :=
  fun _ => hx _

/-- The splat of a real number is real-valued. -/
theorem isReal_broadcast {a : EReal} (ha : ∃ r : ℝ, a = (r : EReal)) : IsReal (broadcast t a) :=
  fun _ => ha

/-- A trailing-axes broadcast of a real-valued array is real-valued. -/
theorem isReal_broadcastTo {h : s.Broadcasts t} {x : s.Idx → EReal} (hx : IsReal x) : IsReal (broadcastTo t x h) :=
  fun _ => hx _

/-- A shape cast (a reshape: the same entries in row-major order) of a real-valued array is real-valued. -/
theorem isReal_shapeCast {h : s.ShapeCasts t} {x : s.Idx → EReal} (hx : IsReal x) : IsReal (shapeCast t x h) :=
  fun _ => hx _

/-- A transpose of a real-valued array is real-valued. -/
theorem isReal_transpose {perm : List (Fin s.rank)} {h : s.Transposes perm t} {x : s.Idx → EReal} (hx : IsReal x) :
    IsReal (transpose t perm x h) :=
  fun _ => hx _

/-- A gather from a real-valued array is real-valued: each result entry is the operand's at an index. -/
theorem isReal_gather {si : Shape} {w : Nat} (d : GatherDims s si t) {x : s.Idx → EReal} (idx : IVec si w)
    (hx : IsReal x) : IsReal (Host.gather d x idx) :=
  fun _ => hx _

end Reindex

/-! ## Scattered sums, contractions, integers -/

section Sums
variable {s : Shape} {φ : FTy}

/-- An accumulating scatter of real-valued updates into a real-valued operand is real-valued: each entry is the
    operand's plus a finite sum of update entries. -/
theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)

/-- A contraction (`dot_general`) of two real-valued arrays is real-valued: each entry is a finite sum of products. -/
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := by
  intro j
  show ∃ r : ℝ, FloatOps.dotGeneral d prec .single x w j = (r : EReal)
  rw [Ideal.dotGeneral_apply]
  exact isReal_sum_univ _ fun k => real_mul (hx _) (hw _)

/-- The same at any schedule key. -/
theorem isReal_dotGeneralAt (sched : HostSchedule) {sl sr so : Shape} {φ₁ φ₂ : FTy} (d : DotDims sl sr so)
    (prec : Option ContractPrecision) {x : FVec Ideal sl φ₁} {w : FVec Ideal sr φ₂} (hx : IsReal x) (hw : IsReal w) :
    IsReal (Host.dotGeneralAt (F := Ideal) sched d prec x w) := by
  intro j
  show ∃ r : ℝ, FloatOps.dotGeneral d prec sched x w j = (r : EReal)
  rw [Ideal.dotGeneral_apply]
  exact isReal_sum_univ _ fun k => real_mul (hx _) (hw _)

/-- A kernel's matrix product of real-valued operands onto a real-valued accumulator is real-valued: each entry is
    the accumulator's plus a finite sum of products. -/
theorem isReal_matmul {sl sr so : Shape} {φ₁ φ₂ : FTy} (d : DotDims sl sr so) (prec : Option ContractPrecision)
    {x : FVec Ideal sl φ₁} {w : FVec Ideal sr φ₂} {acc : FVec Ideal so .f32} (hx : IsReal x) (hw : IsReal w)
    (hacc : IsReal acc) : IsReal (matmul (F := Ideal) d prec x w acc) := by
  intro j
  show ∃ r : ℝ, FloatOps.matmul d prec x w acc j = (r : EReal)
  rw [Ideal.matmul_apply]
  exact real_add (hacc j) (isReal_sum_univ _ fun k => real_mul (hx _) (hw _))

/-- A signed integer array read as floats is real-valued: each entry is the integer's value. -/
theorem isReal_sitofp {w : Nat} (v : IVec s w) : IsReal (sitofp (F := Ideal) φ v) :=
  fun i => ⟨((v i).toInt : ℝ), rfl⟩

/-- An unsigned integer array read as floats is real-valued. -/
theorem isReal_uitofp {w : Nat} (v : IVec s w) : IsReal (uitofp (F := Ideal) φ v) :=
  fun i => ⟨((v i).toNat : ℝ), rfl⟩

end Sums

/-! ## Positive arrays, and the inverse square root of a degree -/

section Degree
variable {s : Shape} {φ : FTy}

/-- An array every entry of which is a positive real number. -/
def IsPos {ι : Type*} (v : ι → EReal) : Prop := ∀ i, ∃ r : ℝ, 0 < r ∧ v i = (r : EReal)

/-- A positive array is real-valued. -/
theorem IsPos.isReal {ι : Type*} {v : ι → EReal} (h : IsPos v) : IsReal v :=
  fun i => let ⟨r, _, hr⟩ := h i; ⟨r, hr⟩

/-- The inverse square root of a positive real number `r` is the positive real number `(√r)⁻¹`. -/
theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']

/-- The host's elementwise inverse square root of a positive array is positive. -/
theorem isPos_rsqrt {x : FVec Ideal s φ} (hx : IsPos x) : IsPos (Host.rsqrt (F := Ideal) x) :=
  fun i => rsqrt_of_pos (hx i)

/-- The host's elementwise inverse square root of a positive array is real-valued. -/
theorem isReal_rsqrt_of_pos {x : FVec Ideal s φ} (hx : IsPos x) : IsReal (Host.rsqrt (F := Ideal) x) :=
  (isPos_rsqrt hx).isReal

/-- The kernel-side elementwise inverse square root of a positive array is positive. -/
theorem isPos_rsqrt' {x : FVec Ideal s φ} (hx : IsPos x) : IsPos (rsqrt (F := Ideal) x) :=
  fun i => rsqrt_of_pos (hx i)

/-- The product of two positive arrays is positive. -/
theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]

/-- A gather from a positive array is positive. -/
theorem isPos_gather {t si : Shape} {w : Nat} (d : GatherDims s si t) {x : s.Idx → EReal} (idx : IVec si w)
    (hx : IsPos x) : IsPos (Host.gather d x idx) :=
  fun _ => hx _

/-- A broadcast along dimensions of a positive array is positive. -/
theorem isPos_broadcastInDim {t : Shape} {dims : Fin s.rank → Fin t.rank} {h : s.BroadcastsInDim t dims}
    {x : s.Idx → EReal} (hx : IsPos x) : IsPos (broadcastInDim t dims h x) :=
  fun _ => hx _

/-- A degree count: scattering ones onto an array of ones leaves at each entry `1 + n`, `n` the number of updates
    that land there. -/
theorem scatterAdd_ones_apply {si su : Shape} (d : ScatterDims s si su) {w : Nat} (idx : IVec si w)
    (one : FVec Ideal s φ) (ones : FVec Ideal su φ) (h1 : ∀ i, one i = 1) (h2 : ∀ j, ones j = 1) (i : s.Idx) :
    Host.scatterAdd (F := Ideal) d one idx ones i
      = ((1 + ((Finset.univ.filter fun j => d.resultIdx? j idx = some i).card : ℝ) : ℝ) : EReal) := by
  show one i + ∑ j ∈ Finset.univ.filter (fun j => d.resultIdx? j idx = some i), ones j = _
  rw [h1 i, Finset.sum_congr rfl (fun j _ => h2 j), Finset.sum_const, nsmul_one, EReal.coe_add, EReal.coe_one,
    EReal.coe_natCast]

/-- A degree count is positive: each entry is a real number at least `1`. -/
theorem isPos_scatterAdd_ones {si su : Shape} (d : ScatterDims s si su) {w : Nat} (idx : IVec si w)
    (one : FVec Ideal s φ) (ones : FVec Ideal su φ) (h1 : ∀ i, one i = 1) (h2 : ∀ j, ones j = 1) :
    IsPos (Host.scatterAdd (F := Ideal) d one idx ones) := fun i =>
  ⟨_, by positivity, scatterAdd_ones_apply d idx one ones h1 h2 i⟩

/-- The inverse square root of a degree count is positive: each entry is `(√(1 + n))⁻¹`. -/
theorem isPos_rsqrt_degree {si su : Shape} (d : ScatterDims s si su) {w : Nat} (idx : IVec si w)
    (one : FVec Ideal s φ) (ones : FVec Ideal su φ) (h1 : ∀ i, one i = 1) (h2 : ∀ j, ones j = 1) :
    IsPos (Host.rsqrt (F := Ideal) (Host.scatterAdd d one idx ones)) :=
  isPos_rsqrt (isPos_scatterAdd_ones d idx one ones h1 h2)

/-- The inverse square root of a degree count is real-valued. -/
theorem isReal_rsqrt_degree {si su : Shape} (d : ScatterDims s si su) {w : Nat} (idx : IVec si w)
    (one : FVec Ideal s φ) (ones : FVec Ideal su φ) (h1 : ∀ i, one i = 1) (h2 : ∀ j, ones j = 1) :
    IsReal (Host.rsqrt (F := Ideal) (Host.scatterAdd d one idx ones)) :=
  (isPos_rsqrt_degree d idx one ones h1 h2).isReal

/-- A degree count with the ones spelled as broadcasts of the constant `1.0` is positive. -/
theorem isPos_scatterAdd_ones_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.scatterAdd (F := Ideal) d (broadcastInDim s dims₀ hb₀ (constant S₀ .f32 0x3F800000#32)) idx
      (broadcastInDim su dims₁ hb₁ (constant S₁ .f32 0x3F800000#32))) :=
  isPos_scatterAdd_ones d idx _ _ (fun _ => Ideal.ofBits_one_f32) (fun _ => Ideal.ofBits_one_f32)

/-- The inverse square root of a degree count so spelled is positive. -/
theorem isPos_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.rsqrt (F := Ideal) (Host.scatterAdd d (broadcastInDim s dims₀ hb₀ (constant S₀ .f32 0x3F800000#32)) idx
      (broadcastInDim su dims₁ hb₁ (constant S₁ .f32 0x3F800000#32)))) :=
  isPos_rsqrt_degree d idx _ _ (fun _ => Ideal.ofBits_one_f32) (fun _ => Ideal.ofBits_one_f32)

/-- … and real-valued. -/
theorem isReal_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsReal (Host.rsqrt (F := Ideal) (Host.scatterAdd d (broadcastInDim s dims₀ hb₀ (constant S₀ .f32 0x3F800000#32)) idx
      (broadcastInDim su dims₁ hb₁ (constant S₁ .f32 0x3F800000#32)))) :=
  (isPos_rsqrt_degree_bcast d idx hb₀ hb₁).isReal

end Degree

/-! ## More host operations on real-valued arrays -/

section More
variable {s : Shape} {φ : FTy}

/-- A real-valued array minus itself is zero everywhere (for an infinite entry the difference is not zero). -/
theorem subf_self {x : FVec Ideal s φ} (hx : IsReal x) : subf (F := Ideal) x x = fun _ => 0 := by
  funext i
  obtain ⟨r, hr⟩ := hx i
  show x i - x i = 0
  rw [hr, ← EReal.coe_sub, sub_self, EReal.coe_zero]

/-- The host's sum over axes of a real-valued array, from a real initial value, is real-valued: each entry is the
    initial value plus a finite sum of entries. -/
theorem isReal_hostReduceAdd {t u : Shape} {axes : List (Fin s.rank)} {x : FVec Ideal s φ} {init : u.Idx → Ideal φ}
    (h : s.ReducesTo axes t) (hu : 0 < u.numel) (hx : IsReal x) (hinit : IsReal init) :
    IsReal (Host.reduceAdd (F := Ideal) x init h hu) :=
  fun _ => real_add (hinit _) (isReal_sum _ _ fun i _ => hx i)

/-- The host's quotient of a real-valued array by an array of real numbers that are not zero is real-valued. -/
theorem isReal_hostDivf {x y : FVec Ideal s φ} (hx : IsReal x) (hy : ∀ i, ∃ r : ℝ, r ≠ 0 ∧ y i = (r : EReal)) :
    IsReal (Host.divf (F := Ideal) x y) := by
  intro i
  obtain ⟨q, hq, hqy⟩ := hy i
  show ∃ r : ℝ, Ideal.div (x i) (y i) = (r : EReal)
  rw [hqy, Ideal.div_coe hq]
  exact real_mul (hx i) ⟨_, rfl⟩

/-- The host's exponential of a real-valued array is positive. -/
theorem isPos_hostExp {x : FVec Ideal s φ} (hx : IsReal x) : IsPos (Host.exp (F := Ideal) x) := by
  intro i
  obtain ⟨r, hr⟩ := hx i
  refine ⟨Real.exp r, Real.exp_pos r, ?_⟩
  show Ideal.exp (x i) = _
  rw [hr, Ideal.exp_coe]

/-- The host's exponential of a real-valued array is real-valued. -/
theorem isReal_hostExp {x : FVec Ideal s φ} (hx : IsReal x) : IsReal (Host.exp (F := Ideal) x) :=
  (isPos_hostExp hx).isReal

/-- The host's logarithm of a positive array is real-valued. -/
theorem isReal_hostLog {x : FVec Ideal s φ} (hx : IsPos x) : IsReal (Host.log (F := Ideal) x) := by
  intro i
  obtain ⟨r, hr, hrx⟩ := hx i
  refine ⟨Real.log r, ?_⟩
  show Ideal.log (x i) = _
  rw [hrx, Ideal.log_coe, if_neg (not_le.mpr hr)]

/-- The host's square root of an array of real numbers that are not negative is real-valued. -/
theorem isReal_hostSqrt {x : FVec Ideal s φ} (hx : ∀ i, ∃ r : ℝ, 0 ≤ r ∧ x i = (r : EReal)) :
    IsReal (Host.sqrt (F := Ideal) x) := by
  intro i
  obtain ⟨r, hr, hrx⟩ := hx i
  refine ⟨Real.sqrt r, ?_⟩
  show Ideal.sqrt (x i) = _
  rw [hrx, Ideal.sqrt_coe, if_neg (not_lt.mpr hr)]

end More

/-! ## A tactic for nested terms -/

/-- `real_valued` proves a goal `IsReal t` for a term `t` built from real-valued hypotheses by the operations above:
    it applies the closure lemma of the outermost operation, then works on the operands, and closes a leaf by a
    hypothesis or by a lemma about a constant or an integer array. A goal it cannot progress on is left to the caller. -/
syntax (name := realValuedTac) "real_valued" : tactic

macro_rules
  | `(tactic| real_valued) => `(tactic|
      repeat' (with_reducible first
        | assumption
        | exact isReal_const_zero
        | exact isReal_const_one
        | exact isReal_const_4096
        | exact isReal_const_1em6
        | exact isReal_sitofp _
        | exact isReal_uitofp _
        | exact isReal_rsqrt_degree_bcast _ _ _ _
        | exact IsPos.isReal (by assumption)
        | exact isPos_scatterAdd_ones_bcast _ _ _ _
        | apply isReal_addf
        | apply isReal_subf
        | apply isReal_mulf
        | apply isReal_maximumf
        | apply isReal_minimumf
        | apply isReal_negf
        | apply isReal_hostNegf
        | apply isReal_broadcastInDim
        | apply isReal_shapeCast
        | apply isReal_transpose
        | apply isReal_gather
        | apply isReal_scatterAdd
        | apply isReal_dotGeneral
        | apply isReal_matmul
        | apply isReal_hostReduceAdd
        | apply isReal_hostExp
        | apply isReal_rsqrt_of_pos
        | apply isPos_rsqrt
        | apply isPos_mulf
        | apply isPos_gather
        | apply isPos_broadcastInDim
        | apply isPos_hostExp))

/-! ## Usage -/

section Usage

/-- Small shapes standing for nodes, edges and features: `N` nodes, `E` edges, `D` features. -/
private abbrev S0 : Shape := ⟨0, ![]⟩
private abbrev SN : Shape := ⟨1, ![5]⟩
private abbrev SN1 : Shape := ⟨2, ![5, 1]⟩
private abbrev SND : Shape := ⟨2, ![5, 3]⟩
private abbrev SE : Shape := ⟨1, ![7]⟩
private abbrev SE1 : Shape := ⟨2, ![7, 1]⟩
private abbrev SED : Shape := ⟨2, ![7, 3]⟩
private abbrev SD : Shape := ⟨1, ![3]⟩
private abbrev S1D : Shape := ⟨2, ![1, 3]⟩
private abbrev SKD : Shape := ⟨2, ![4, 3]⟩
private abbrev SNK : Shape := ⟨2, ![5, 4]⟩

/-- One graph-convolution aggregation, term by term: a scattered sum of weighted gathered rows onto zeros, plus the
    weighted self term. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) :=
  isReal_addf
    (isReal_scatterAdd d idx (isReal_broadcastInDim isReal_const_zero)
      (isReal_mulf (isReal_broadcastInDim ha) (isReal_gather g idx' hx)))
    (isReal_mulf (isReal_broadcastInDim hc) hx)

/-- The same by the tactic. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) := by
  real_valued

/-- The normalisation weights of an edge: the product of the two endpoints' inverse-square-root degrees, the degree
    a scattered count of ones onto ones, the operations applied through `fun`s as a host program writes them. -/
example (d : ScatterDims SN SE1 SE) (g : GatherDims SN SE1 SE) (idx i₁ i₂ : IVec SE1 32)
    (hb0 : S0.BroadcastsInDim SN ![]) (hb1 : S0.BroadcastsInDim SE ![]) :
    IsReal (mulf (F := Ideal)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₁)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₂)) := by
  real_valued

/-- A dense layer with a bias and a relu: a contraction of real-valued arrays, plus a broadcast bias, against zero. -/
example (dd : DotDims SNK SKD SND) (x : FVec Ideal SNK .f32) (w : FVec Ideal SKD .f32) (b : FVec Ideal SD .f32)
    (hb0 : S0.BroadcastsInDim SND ![]) (hb1 : SD.BroadcastsInDim S1D ![1]) (hb2 : S1D.BroadcastsInDim SND ![0, 1])
    (hx : IsReal x) (hw : IsReal w) (hbias : IsReal b) :
    IsReal (maximumf (F := Ideal)
      (addf ((fun l r => Host.dotGeneral dd none l r) x w) (broadcastInDim SND ![0, 1] hb2 (broadcastInDim S1D ![1] hb1 b)))
      (broadcastInDim SND ![] hb0 (constant S0 .f32 0x00000000#32))) := by
  real_valued

/-- Labels read as floats, negated. -/
example (v : IVec SN 32) : IsReal (Host.negf (F := Ideal) (sitofp .f32 v)) := by
  real_valued

/-- A leaf the tactic does not know is left as a goal: here an input known finite by a precondition. -/
example (x y : FVec Ideal SN .f32) (hx : IsReal x) (hy : ∀ i, y i ≠ ⊤ ∧ y i ≠ ⊥) :
    IsReal (addf (F := Ideal) x (mulf y x)) := by
  real_valued
  exact isReal_of_finite hy

/-- A host program's term as such a program is written: generic in the float values, each operation applied at its
    buffers' contents types. -/
private def edgeWeights {F : FTy → Type} [FloatOps F] (d : ScatterDims SN SE1 SE) (g : GatherDims SN SE1 SE)
    (idx i₁ : IVec SE1 32) (hb0 : S0.BroadcastsInDim SN ![]) (hb1 : S0.BroadcastsInDim SE ![])
    (hbe : SE.BroadcastsInDim SE1 ![0]) (x : FVec F SE1 .f32) : FVec F SE1 .f32 :=
  (mulf : (⟨SE1, .f32⟩ : BufTy).Contents (Elt F) → (⟨SE1, .f32⟩ : BufTy).Contents (Elt F)
      → (⟨SE1, .f32⟩ : BufTy).Contents (Elt F))
    ((broadcastInDim SE1 ![0] hbe : (⟨SE, .f32⟩ : BufTy).Contents (Elt F) → (⟨SE1, .f32⟩ : BufTy).Contents (Elt F))
      (((fun x i => Host.gather g x i) : (⟨SN, .f32⟩ : BufTy).Contents (Elt F) → (⟨SE1, .i32⟩ : BufTy).Contents (Elt F)
          → (⟨SE, .f32⟩ : BufTy).Contents (Elt F))
        ((Host.rsqrt : (⟨SN, .f32⟩ : BufTy).Contents (Elt F) → (⟨SN, .f32⟩ : BufTy).Contents (Elt F))
          (((fun x i u => Host.scatterAdd d x i u) : (⟨SN, .f32⟩ : BufTy).Contents (Elt F)
              → (⟨SE1, .i32⟩ : BufTy).Contents (Elt F) → (⟨SE, .f32⟩ : BufTy).Contents (Elt F)
              → (⟨SN, .f32⟩ : BufTy).Contents (Elt F))
            ((broadcastInDim SN ![] hb0 : (⟨S0, .f32⟩ : BufTy).Contents (Elt F) → (⟨SN, .f32⟩ : BufTy).Contents (Elt F))
              (constant S0 .f32 0x3F800000#32))
            idx
            ((broadcastInDim SE ![] hb1 : (⟨S0, .f32⟩ : BufTy).Contents (Elt F) → (⟨SE, .f32⟩ : BufTy).Contents (Elt F))
              (constant S0 .f32 0x3F800000#32))))
        i₁))
    x

/-- Read at the ideal values, that term is real-valued when its input is. -/
example (d : ScatterDims SN SE1 SE) (g : GatherDims SN SE1 SE) (idx i₁ : IVec SE1 32) (hb0 : S0.BroadcastsInDim SN ![])
    (hb1 : S0.BroadcastsInDim SE ![]) (hbe : SE.BroadcastsInDim SE1 ![0]) (x : FVec Ideal SE1 .f32) (hx : IsReal x) :
    IsReal (edgeWeights (F := Ideal) d g idx i₁ hb0 hb1 hbe x) := by
  unfold edgeWeights
  real_valued

end Usage

end RealValued
-- ==== Proof.PreFacts.lean ====
/-
  What the precondition says of the three inputs.

  The precondition is one conjunction of five `all`s: every entry of `q`, of `p` and of the label matrix
  has absolute value below `+∞`, and every entry of `q` and of `p` is greater than zero. An entry whose
  absolute value is below `+∞` is neither infinity, so it is a real number; a real entry greater than zero is a
  positive real. So `q` and `p` are arrays of positive reals — the domain of the logarithm both programs take
  of them — and the labels are real.
-/
import proofs.«171668_j17008070493058_1_alg».proof.Pre_finite_inputs
import proofs.«171668_j17008070493058_1_alg».proof.Proof.Gen.Pre_finite_inputs
import proofs.«171668_j17008070493058_1_alg».proof.Proof.LibRealValued
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic RealValued

instance : Subsingleton S_.Idx := ⟨fun a b => funext fun d => d.elim0⟩

/-- A one-bit word made from a Boolean is `1` only for `true`. -/
theorem ofBool_eq_one {b : Bool} (h : BitVec.ofBool b = 1#1) : b = true := by
  cases b
  · exact absurd h (by decide)
  · rfl

/-- The f32 pattern with all exponent bits set and a zero fraction denotes `+∞`. -/
theorem ofBits_inf : Ideal.ofBits .f32 0x7F800000#32 = ⊤ := by
  simp [Ideal.ofBits, Ideal.ieee]

/-- "Below `+∞`", read back from the comparison's bit. -/
theorem lt_top_of_cmp (a : EReal) (h : Ideal.cmp .olt a (Ideal.ofBits .f32 0x7F800000#32) = 1#1) : a < ⊤ := by
  rw [ofBits_inf] at h
  have h' : BitVec.ofBool (decide (a < ⊤)) = 1#1 := h
  exact of_decide_eq_true (ofBool_eq_one h')

/-- "Greater than zero", read back from the comparison's bit. -/
theorem pos_of_cmp (a : EReal) (h : Ideal.cmp .ogt a (Ideal.ofBits .f32 0x00000000#32) = 1#1) : 0 < a := by
  rw [Ideal.ofBits_zero_f32] at h
  have h' : BitVec.ofBool (decide ((0 : EReal) < a)) = 1#1 := h
  exact of_decide_eq_true (ofBool_eq_one h')

/-- A real-valued array whose entries are all greater than zero is an array of positive reals. -/
theorem isPos_of {ι : Type*} {x : ι → EReal} (hr : IsReal x) (hp : ∀ i, 0 < x i) : IsPos x := by
  intro i
  obtain ⟨r, hr⟩ := hr i
  refine ⟨r, ?_, hr⟩
  have := hp i
  rw [hr] at this
  exact EReal.coe_pos.mp this

/-- The precondition, decoded: `q` and `p` hold positive reals, the labels hold reals. -/
theorem of_pre (q p : FVec Ideal S4096x1024 .f32) (L : FVec Ideal S4096x4096 .f32)
    (h : fn (F := Ideal) q p L = fun _ => 1#1) : IsPos q ∧ IsPos p ∧ IsReal L := by
  have h0 := congrFun h ValueIdx.ix0
  dsimp only [fn, fn_part1] at h0
  obtain ⟨h17, hpp⟩ := IntOp.andi_eq_one.1 h0
  obtain ⟨h13, hqp⟩ := IntOp.andi_eq_one.1 h17
  obtain ⟨h8, hLf⟩ := IntOp.andi_eq_one.1 h13
  obtain ⟨hqf, hpf⟩ := IntOp.andi_eq_one.1 h8
  have qr : IsReal q := isReal_of_abs_lt_top fun i => lt_top_of_cmp _ (Host.reduce_andi_all _ _ _ _ _ hqf i)
  have pr : IsReal p := isReal_of_abs_lt_top fun i => lt_top_of_cmp _ (Host.reduce_andi_all _ _ _ _ _ hpf i)
  have Lr : IsReal L := isReal_of_abs_lt_top fun i => lt_top_of_cmp _ (Host.reduce_andi_all _ _ _ _ _ hLf i)
  exact ⟨isPos_of qr fun i => pos_of_cmp _ (Host.reduce_andi_all _ _ _ _ _ hqp i),
    isPos_of pr fun i => pos_of_cmp _ (Host.reduce_andi_all _ _ _ _ _ hpp i), Lr⟩

end Cert.Pre_finite_inputs.Decode

end
-- ==== Proof.Keepdims.lean ====
/-
  A vector and the one-column matrix with the same entries.

  A row sum kept as a column (`keepdims`) is the vector of sums cast from `[a]` to `[a, 1]`, and a column
  read back as a vector is the cast from `[a, 1]` to `[a]`. Both casts keep the row-major position, and the
  row-major position of `(i, 0)` in `[a, 1]` is `i · 1 + 0 = i`: entry `(i, 0)` of the column is entry `i`
  of the vector.
-/
import Idealize.ShloMosaic.Lib.Pipeline.Value
import Idealize.ShloMosaic.Lib.ValueIdx

namespace KlRow

open Idealize.ShloMosaic Idealize.ShloMosaic.ValueIdx

variable {α : Type}

/-- A vector cast to a one-column matrix reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix cast to a vector reads, at `i`, the matrix at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end KlRow
-- ==== Proof.KernelBlock.lean ====
/-
  What the kernel body computes at one grid point, entry by entry.

  At a point the body holds a block `x0` of 256 rows of `log q`, all 4096 rows `x1` of `p`, the 256 matching
  rows `x2` of the labels, the entropy terms `x3` as one row of 4096, and 256 divergence means `x4` as a column.
  For a query row `a` of the block and a key row `j`,
      numerator  `n a j = x3[0, j] − ∑ d, x0[a, d] · x1[j, d]`       (the matrix product contracts the feature axis
                                                                      of both operands into a zero accumulator),
      weighted   `w a   = ∑ j, n a j · x2[a, j]`                     (a sum along the key axis),
      stored as the positive part  `x4[a, 0] + w a · 2⁻¹⁰`
      and the negative part        `((∑ j, n a j) − w a) · 2⁻¹⁰`.
  Each statement below reads one printed value of the body at an index given by its coordinates.
-/
import proofs.«171668_j17008070493058_1_alg».proof.Proof.Gen.KernelIdeal.Skeleton
import proofs.«171668_j17008070493058_1_alg».proof.Proof.Keepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx KlRow

/-! ## The matrix product's operand indices -/

/-- The left operand's row is the output's row. -/
theorem lhs_row (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
/-- The left operand's column is the contraction position. -/
theorem lhs_col (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
/-- The right operand's row is the output's column: the product is against the transpose. -/
theorem rhs_row (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
/-- The right operand's column is the contraction position. -/
theorem rhs_col (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- The block product into a zero accumulator, at `(a, j)`: row `a` of the left operand against row `j` of the
    right one, summed over the 1024 features. -/
theorem cross_apply (x0 : FVec Ideal S256x1024 .bf16) (x1 : FVec Ideal S4096x1024 .bf16) (a : Fin 256) (j : Fin 4096) :
    matmul dot_S256x1024_S4096x1024_S256x4096_1_1_0_0_n_n none x0 x1 (constant (F := Ideal) S256x4096 .f32 0x00000000#32) (ix2 a j)
      = ∑ d : Fin 1024, x0 (ix2 a d) * x1 (ix2 j d) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 a j) ((contrEquiv1 dot_S256x1024_S4096x1024_S256x4096_1_1_0_0_n_n 1024 rfl rfl).symm k) = ix2 a k := funext fun ax => Fin.ext (by
    match ax with
    | ⟨0, _⟩ => exact lhs_row _ _
    | ⟨1, _⟩ => exact (lhs_col _ _).trans hk)
  have er : dot_S256x1024_S4096x1024_S256x4096_1_1_0_0_n_n.rhsIdx (ix2 a j) ((contrEquiv1 dot_S256x1024_S4096x1024_S256x4096_1_1_0_0_n_n 1024 rfl rfl).symm k) = ix2 j k := funext fun ax => Fin.ext (by
    match ax with
    | ⟨0, _⟩ => exact rhs_row _ _
    | ⟨1, _⟩ => exact (rhs_col _ _).trans hk)
  rw [el, er]

/-- A sum of a [256, 4096] block along its second axis, from the neutral accumulator, at row `a`: the sum of
    the row's 4096 entries. -/
theorem rowsum_apply (src : FVec Ideal S256x4096 .f32) (h : S256x4096.Reduces [1] S256) (hφ : FKind.Formats .f32)
    (hacc : (0x00000000#32 : BitVec 32) = 0x00000000#32) (a : Fin 256) :
    multiReduction .add [1] S256 src 0x00000000#32 h hφ hacc (ix1 a) = ∑ j : Fin 4096, src (ix2 a j) := by
  refine (Ideal.multiReduction_add_single src 0x00000000#32 h hφ hacc (ix1 a)).trans ?_
  refine Finset.sum_congr rfl fun j _ => congrArg src ?_
  exact funext fun ax => Fin.ext (by match ax with | ⟨0, _⟩ => rfl | ⟨1, _⟩ => rfl)

/-! ## The body's values -/

variable (x0 : FVec Ideal S256x1024 .bf16) (x1 : FVec Ideal S4096x1024 .bf16) (x3 : FVec Ideal S1x4096 .f32)
  (x2 : FVec Ideal S256x4096 .f32) (x4 : FVec Ideal S256x1 .f32)

/-- The divergence numerator of query row `a` against key row `j`: the key row's entropy term less the product. -/
theorem numerator_apply (a : Fin 256) (j : Fin 4096) :
    k0_pay1 x0 x1 x3 (ix2 a j) = x3 (ix2 (0 : Fin 1) j) - ∑ d : Fin 1024, x0 (ix2 a d) * x1 (ix2 j d) := by
  unfold k0_pay1
  show broadcastTo S256x4096 (shapeCast S1x4096 x3 shapeCasts_S1x4096_S1x4096) broadcasts_S1x4096_S256x4096 (ix2 a j)
      - matmul dot_S256x1024_S4096x1024_S256x4096_1_1_0_0_n_n none (shapeCast S256x1024 x0 shapeCasts_S256x1024_S256x1024) (shapeCast S4096x1024 x1 shapeCasts_S4096x1024_S4096x1024)
          (constant (F := Ideal) S256x4096 .f32 0x00000000#32) (ix2 a j) = _
  rw [shapeCast_self, shapeCast_self, shapeCast_self, broadcastTo_1b_ab_apply, cross_apply]

/-- The labelled sum of a query row, kept as a column. -/
theorem weighted_apply (a : Fin 256) (u : Fin 1) :
    k0_pay2 x0 x1 x3 x2 (ix2 a u) = ∑ j : Fin 4096, k0_pay1 x0 x1 x3 (ix2 a j) * x2 (ix2 a j) := by
  unfold k0_pay2
  show shapeCast S256x1 (multiReduction .add [1] S256 (mulf (k0_pay1 x0 x1 x3) x2) 0x00000000#32 reduces_S256x4096_S256 (.inl rfl) rfl)
      shapeCasts_S256_S256x1 (ix2 a u) = _
  exact (shapeCast_a_a1_apply _ _ a u).trans (rowsum_apply _ _ _ _ a)

/-- The stored negative part of a query row: the plain sum less the labelled sum, scaled by `2⁻¹⁰`. -/
theorem negative_apply (a : Fin 256) (u : Fin 1) :
    k0_pay3 x0 x1 x3 x2 (ix2 a u)
      = ((∑ j : Fin 4096, k0_pay1 x0 x1 x3 (ix2 a j)) - ∑ j : Fin 4096, k0_pay1 x0 x1 x3 (ix2 a j) * x2 (ix2 a j))
        * Ideal.ofBits .f32 0x3A800000#32 := by
  unfold k0_pay3
  show (shapeCast S256x1 (multiReduction .add [1] S256 (k0_pay1 x0 x1 x3) 0x00000000#32 reduces_S256x4096_S256 (.inl rfl) rfl)
        shapeCasts_S256_S256x1 (ix2 a u) - k0_pay2 x0 x1 x3 x2 (ix2 a u)) * Ideal.ofBits .f32 0x3A800000#32 = _
  rw [weighted_apply]
  refine congrArg (fun z : EReal => (z - _) * _) ?_
  exact (shapeCast_a_a1_apply _ _ a u).trans (rowsum_apply _ _ _ _ a)

/-- The stored positive part of a query row: its divergence mean plus the labelled sum scaled by `2⁻¹⁰`. -/
theorem positive_apply (a : Fin 256) (u : Fin 1) :
    k0_pay4 x0 x1 x3 x2 x4 (ix2 a u)
      = x4 (ix2 a u) + (∑ j : Fin 4096, k0_pay1 x0 x1 x3 (ix2 a j) * x2 (ix2 a j)) * Ideal.ofBits .f32 0x3A800000#32 := by
  unfold k0_pay4
  show shapeCast S256x1 x4 shapeCasts_S256x1_S256x1 (ix2 a u)
      + k0_pay2 x0 x1 x3 x2 (ix2 a u) * Ideal.ofBits .f32 0x3A800000#32 = _
  rw [shapeCast_self, weighted_apply]

end Cert.KernelIdeal.Block

end
-- ==== Proof.RowLaw.lean ====
/-
  One row of the loss, as arithmetic.

  Fix a query row. Its divergence numerators `d j` (one per key row `j`) and its labels `l j` are real
  numbers. The kernel sums first and scales the two sums by `2⁻¹⁰` afterwards,
      positive part  `(∑ j, d j · l j) · 2⁻¹⁰`,     negative part  `((∑ j, d j) − ∑ j, d j · l j) · 2⁻¹⁰`,
  while the reference divides every numerator by `1024` before it weighs and sums,
      positive part  `∑ j, (d j / 1024) · l j`,      negative part  `∑ j, (d j / 1024) · (1 − l j)`.
  Over the real numbers these agree: a common factor moves across a finite sum, and
  `∑ d − ∑ d·l = ∑ d·(1 − l)`. Over the extended reals neither step is valid at an infinity, which is why
  the two statements below ask every `d j` and `l j` to be real.
-/
import proofs.«171668_j17008070493058_1_alg».proof.Proof.LibRealValued

open Idealize.ShloMosaic RealValued
open scoped BigOperators

namespace KlRow

/-- The f32 pattern of `1024.0` (sign 0, exponent 137, fraction 0) denotes the real `1024`. -/
theorem ofBits_1024 : Ideal.ofBits .f32 0x44800000#32 = ((1024 : ℝ) : EReal) := by
  simp [Ideal.ofBits, Ideal.ieee, -EReal.coe_mul]; norm_num

/-- The f32 pattern of `2⁻¹⁰` (sign 0, exponent 117, fraction 0) denotes the real `1 / 1024`: the
    reciprocal is a power of two, so the kernel's folded constant is exact. -/
theorem ofBits_inv1024 : Ideal.ofBits .f32 0x3A800000#32 = (((1 / 1024 : ℝ)) : EReal) := by
  simp [Ideal.ofBits, Ideal.ieee, -EReal.coe_mul]; norm_num

/-- The embedding of the reals commutes with finite sums. -/
theorem coe_sum {J : Type*} (s : Finset J) (f : J → ℝ) :
    ((∑ j ∈ s, f j : ℝ) : EReal) = ∑ j ∈ s, (f j : EReal) := by
  classical
  refine Finset.induction_on s (by simp) ?_
  intro a s ha ih
  rw [Finset.sum_insert ha, Finset.sum_insert ha, EReal.coe_add, ih]

variable {J : Type*} [Fintype J]

/-- The labelled sum: scaling the sum of `d j · l j` by `2⁻¹⁰` is summing `(d j / 1024) · l j` from
    the reference's zero initial value. -/
theorem labelled_sum_scaled (d l : J → EReal) (hd : IsReal d) (hl : IsReal l) :
    (∑ j, d j * l j) * Ideal.ofBits .f32 0x3A800000#32
      = Ideal.ofBits .f32 0x00000000#32
        + ∑ j, Ideal.div (d j) (Ideal.ofBits .f32 0x44800000#32) * l j := by
  obtain ⟨dr, rfl⟩ : ∃ dr : J → ℝ, d = fun j => ((dr j : ℝ) : EReal) :=
    ⟨fun j => (hd j).choose, funext fun j => (hd j).choose_spec⟩
  obtain ⟨lr, rfl⟩ : ∃ lr : J → ℝ, l = fun j => ((lr j : ℝ) : EReal) :=
    ⟨fun j => (hl j).choose, funext fun j => (hl j).choose_spec⟩
  simp only [ofBits_1024, ofBits_inv1024, Ideal.ofBits_zero_f32, zero_add,
    Ideal.div_coe (by norm_num : (1024 : ℝ) ≠ 0), ← EReal.coe_mul, ← coe_sum]
  refine congrArg (fun r : ℝ => (r : EReal)) ?_
  rw [Finset.sum_mul]
  exact Finset.sum_congr rfl fun j _ => by ring

/-- The unlabelled remainder: scaling `∑ d − ∑ d·l` by `2⁻¹⁰` is summing `(d j / 1024) · (1 − l j)`
    from the reference's zero initial value. -/
theorem unlabelled_sum_scaled (d l : J → EReal) (hd : IsReal d) (hl : IsReal l) :
    ((∑ j, d j) - ∑ j, d j * l j) * Ideal.ofBits .f32 0x3A800000#32
      = Ideal.ofBits .f32 0x00000000#32
        + ∑ j, Ideal.div (d j) (Ideal.ofBits .f32 0x44800000#32)
            * (Ideal.ofBits .f32 0x3F800000#32 - l j) := by
  obtain ⟨dr, rfl⟩ : ∃ dr : J → ℝ, d = fun j => ((dr j : ℝ) : EReal) :=
    ⟨fun j => (hd j).choose, funext fun j => (hd j).choose_spec⟩
  obtain ⟨lr, rfl⟩ : ∃ lr : J → ℝ, l = fun j => ((lr j : ℝ) : EReal) :=
    ⟨fun j => (hl j).choose, funext fun j => (hl j).choose_spec⟩
  simp only [ofBits_1024, ofBits_inv1024, Ideal.ofBits_zero_f32, Ideal.ofBits_one_f32, zero_add,
    Ideal.div_coe (by norm_num : (1024 : ℝ) ≠ 0), ← EReal.coe_one, ← EReal.coe_mul, ← EReal.coe_sub,
    ← coe_sum]
  refine congrArg (fun r : ℝ => (r : EReal)) ?_
  rw [← Finset.sum_sub_distrib, Finset.sum_mul]
  exact Finset.sum_congr rfl fun j _ => by ring

end KlRow
-- ==== Proof.Spec.lean ====
/-
  The loss, one query row at a time, as functions of the arrays both programs build first.

  Both programs take `log q` (rows of query features), `p` (rows of key features), the label matrix, the keys'
  entropy terms `e j = ∑ d, p[j, d] · log p[j, d]` and the queries' divergence means `k r`. For a query row `r`
  and a key row `j` the divergence numerator is
      `num r j = e j − ∑ d, (log q)[r, d] · p[j, d]`.
  The kernel forms the row's positive and negative parts by summing first and scaling by `2⁻¹⁰` afterwards
  (`posK`, `negK`); the reference divides each numerator by `1024` first (`posR`, `negR`). When the arrays hold real
  numbers every numerator is real, and the two forms are equal by the row law.
-/
import proofs.«171668_j17008070493058_1_alg».proof.Proof.RowLaw
import Idealize.ShloMosaic.Lib.ValueIdx

noncomputable section

open scoped BigOperators

namespace KlRow

open Idealize.ShloMosaic Idealize.ShloMosaic.ValueIdx RealValued

/-- The shape of `log q` and of `p`: 4096 rows of 1024 features. -/
abbrev SRows : Shape := ⟨2, ![4096, 1024]⟩
/-- The shape of the label matrix: query rows by key rows. -/
abbrev SPairs : Shape := ⟨2, ![4096, 4096]⟩

variable (lq pk : SRows.Idx → EReal) (lab : SPairs.Idx → EReal) (e : Fin 4096 → EReal)

/-- The divergence numerator of query row `r` against key row `j`. -/
def num (r j : Fin 4096) : EReal := e j - ∑ d : Fin 1024, lq (ix2 r d) * pk (ix2 j d)

/-- The kernel's positive part of row `r`: the divergence mean `k` plus the labelled sum, scaled after summing. -/
def posK (k : EReal) (r : Fin 4096) : EReal :=
  k + (∑ j : Fin 4096, num lq pk e r j * lab (ix2 r j)) * Ideal.ofBits .f32 0x3A800000#32

/-- The kernel's negative part of row `r`: the plain sum less the labelled sum, scaled after summing. -/
def negK (r : Fin 4096) : EReal :=
  ((∑ j : Fin 4096, num lq pk e r j) - ∑ j : Fin 4096, num lq pk e r j * lab (ix2 r j)) * Ideal.ofBits .f32 0x3A800000#32

/-- The reference's positive part of row `r`: the divergence mean plus the sum of the divided numerators times the
    labels, from a zero initial value. -/
def posR (k : EReal) (r : Fin 4096) : EReal :=
  k + (Ideal.ofBits .f32 0x00000000#32
        + ∑ j : Fin 4096, Ideal.div (num lq pk e r j) (Ideal.ofBits .f32 0x44800000#32) * lab (ix2 r j))

/-- The reference's negative part of row `r`: the sum of the divided numerators times one less the labels. -/
def negR (r : Fin 4096) : EReal :=
  Ideal.ofBits .f32 0x00000000#32
    + ∑ j : Fin 4096, Ideal.div (num lq pk e r j) (Ideal.ofBits .f32 0x44800000#32)
        * (Ideal.ofBits .f32 0x3F800000#32 - lab (ix2 r j))

variable {lq pk lab e}

/-- Every numerator of a row is a real number when the arrays hold real numbers: a difference of a real and a finite
    sum of products of reals. -/
theorem num_real (hlq : IsReal lq) (hpk : IsReal pk) (he : IsReal e) (r : Fin 4096) : IsReal (num lq pk e r) :=
  fun j => real_sub (he j) (isReal_sum_univ _ fun d => real_mul (hlq _) (hpk _))

/-- The two positive parts of a row are equal over real arrays. -/
theorem posK_eq_posR (hlq : IsReal lq) (hpk : IsReal pk) (hlab : IsReal lab) (he : IsReal e) (k : EReal) (r : Fin 4096) :
    posK lq pk lab e k r = posR lq pk lab e k r := by
  unfold posK posR
  exact congrArg (k + ·) (labelled_sum_scaled (num lq pk e r) (fun j => lab (ix2 r j)) (num_real hlq hpk he r) fun j => hlab _)

/-- The two negative parts of a row are equal over real arrays. -/
theorem negK_eq_negR (hlq : IsReal lq) (hpk : IsReal pk) (hlab : IsReal lab) (he : IsReal e) (r : Fin 4096) :
    negK lq pk lab e r = negR lq pk lab e r := by
  unfold negK negR
  exact unlabelled_sum_scaled (num lq pk e r) (fun j => lab (ix2 r j)) (num_real hlq hpk he r) fun j => hlab _

end KlRow

end
-- ==== Proof.KernelArrays.lean ====
/-
  The two columns the kernel region leaves: the positive and the negative part of every query row.

  The grid has 16 points. Point `t` is handed rows `256·t … 256·t + 255` of `log q`, of the labels and of the
  divergence means, together with all of `p` and the whole row of entropy terms, and writes rows
  `256·t … 256·t + 255` of both output columns. So row `r` of an output column is written by point `r / 256`, from
  row `r` of each row-blocked input: every entry of the positive column is `posK` of its row, every entry of the
  negative column is `negK` of its row, and the sixteen blocks cover the columns.
-/
import proofs.«171668_j17008070493058_1_alg».proof.Proof.Gen.KernelIdeal.Frame
import proofs.«171668_j17008070493058_1_alg».proof.Proof.KernelBlock
import proofs.«171668_j17008070493058_1_alg».proof.Proof.Spec
import Idealize.ShloMosaic.Lib.Pipeline.Value

set_option maxRecDepth 16384

noncomputable section

open scoped BigOperators

namespace Cert.KernelIdeal.Arrays

open Cert.KernelIdeal Cert.KernelIdeal.Gen Cert.KernelIdeal.Block
open Idealize.ShloMosaic Idealize.ShloMosaic.TcCoe Idealize.SL.Sem Idealize.ShloMosaic.ValueIdx KlRow
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region is entered with -/

/-- `log q`, as the region finds it. -/
abbrev lq (c : Dev nD) : FVec Ideal S4096x1024 .bf16 := V m c main_v9
/-- `p`, as the region finds it. -/
abbrev pk (c : Dev nD) : FVec Ideal S4096x1024 .bf16 := V m c main_v10
/-- The label matrix. -/
abbrev lab (c : Dev nD) : FVec Ideal S4096x4096 .f32 := V m c main_arg2
/-- The keys' entropy terms, as one row. -/
abbrev ent (c : Dev nD) : FVec Ideal S1x4096 .f32 := V m c main_v11
/-- The queries' divergence means, as one column. -/
abbrev kld (c : Dev nD) : FVec Ideal S4096x1 .f32 := V m c main_v12

/-- The positive column: entry `(r, ·)` is the positive part of query row `r`. -/
def posArr (c : Dev nD) : FVec Ideal S4096x1 .f32 := fun i =>
  posK (lq m c) (pk m c) (lab m c) (fun j => ent m c (ix2 (0 : Fin 1) j)) (kld m c i) ⟨(i 0).val, (i 0).isLt⟩

/-- The negative column: entry `(r, ·)` is the negative part of query row `r`. -/
def negArr (c : Dev nD) : FVec Ideal S4096x1 .f32 := fun i =>
  negK (lq m c) (pk m c) (lab m c) (fun j => ent m c (ix2 (0 : Fin 1) j)) ⟨(i 0).val, (i 0).isLt⟩

/-! ## Which rows a point sees -/

/-- The block indices of the seven windows at point `t`: the row-blocked ones sit at block row `t`, the two
    whole-array ones at block `(0, 0)`; decided over the sixteen points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `a` of point `t`'s block is row `256·t + a` of the array. -/
def row (t : Fin cfg0.N) (a : Fin 256) : Fin 4096 :=
  ⟨256 * t.val + a.val, by have := t.isLt; have hN : cfg0.N = 16 := N_0; have := a.isLt; omega⟩

theorem row_val (t : Fin cfg0.N) (a : Fin 256) : (row t a).val = 256 * t.val + a.val := rfl

/-- The `log q` block of a point: its rows of `log q`. -/
theorem blk0_apply (c : Dev nD) (t : Fin cfg0.N) (a : Fin 256) (d : Fin 1024) :
    (iblk m c 0 t : FVec Ideal S256x1024 .bf16) (ix2 a d) = lq m c (ix2 (row t a) d) := by
  obtain ⟨e0, e1, -⟩ := idx_facts t
  unfold iblk
  rw [View.read_apply]
  show V m c main_v9 _ = V m c main_v9 _
  congr 1
  funext ax
  apply Fin.ext
  match ax with
  | ⟨0, _⟩ => show win0_0.index t 0 * 256 + 1 * a.val = 256 * t.val + a.val; rw [e0]; omega
  | ⟨1, _⟩ => show win0_0.index t 1 * 1024 + 1 * d.val = d.val; rw [e1]; omega

/-- The `p` block of every point is all of `p`. -/
theorem blk1_apply (c : Dev nD) (t : Fin cfg0.N) (j : Fin 4096) (d : Fin 1024) :
    (iblk m c 1 t : FVec Ideal S4096x1024 .bf16) (ix2 j d) = pk m c (ix2 j d) := by
  obtain ⟨-, -, e0, e1, -⟩ := idx_facts t
  unfold iblk
  rw [View.read_apply]
  show V m c main_v10 _ = V m c main_v10 _
  congr 1
  funext ax
  apply Fin.ext
  match ax with
  | ⟨0, _⟩ => show win0_1.index t 0 * 4096 + 1 * j.val = j.val; rw [e0]; omega
  | ⟨1, _⟩ => show win0_1.index t 1 * 1024 + 1 * d.val = d.val; rw [e1]; omega

/-- The label block of a point: its rows of the label matrix. -/
theorem blk2_apply (c : Dev nD) (t : Fin cfg0.N) (a : Fin 256) (j : Fin 4096) :
    (iblk m c 2 t : FVec Ideal S256x4096 .f32) (ix2 a j) = lab m c (ix2 (row t a) j) := by
  obtain ⟨-, -, -, -, e0, e1, -⟩ := idx_facts t
  unfold iblk
  rw [View.read_apply]
  show V m c main_arg2 _ = V m c main_arg2 _
  congr 1
  funext ax
  apply Fin.ext
  match ax with
  | ⟨0, _⟩ => show win0_2.index t 0 * 256 + 1 * a.val = 256 * t.val + a.val; rw [e0]; omega
  | ⟨1, _⟩ => show win0_2.index t 1 * 4096 + 1 * j.val = j.val; rw [e1]; omega

/-- The entropy block of every point is the whole row of entropy terms. -/
theorem blk3_apply (c : Dev nD) (t : Fin cfg0.N) (j : Fin 4096) :
    (iblk m c 3 t : FVec Ideal S1x4096 .f32) (ix2 (0 : Fin 1) j) = ent m c (ix2 (0 : Fin 1) j) := by
  obtain ⟨-, -, -, -, -, -, e0, e1, -⟩ := idx_facts t
  unfold iblk
  rw [View.read_apply]
  show V m c main_v11 _ = V m c main_v11 _
  congr 1
  funext ax
  apply Fin.ext
  match ax with
  | ⟨0, _⟩ => show win0_3.index t 0 * 1 + 1 * 0 = 0; rw [e0]
  | ⟨1, _⟩ => show win0_3.index t 1 * 4096 + 1 * j.val = j.val; rw [e1]; omega

/-- The divergence-mean block of a point: its rows of the column. -/
theorem blk4_apply (c : Dev nD) (t : Fin cfg0.N) (a : Fin 256) (u : Fin 1) :
    (iblk m c 4 t : FVec Ideal S256x1 .f32) (ix2 a u) = kld m c (ix2 (row t a) u) := by
  obtain ⟨-, -, -, -, -, -, -, -, e0, e1, -⟩ := idx_facts t
  unfold iblk
  rw [View.read_apply]
  show V m c main_v12 _ = V m c main_v12 _
  congr 1
  funext ax
  apply Fin.ext
  match ax with
  | ⟨0, _⟩ => show win0_4.index t 0 * 256 + 1 * a.val = 256 * t.val + a.val; rw [e0]; omega
  | ⟨1, _⟩ => show win0_4.index t 1 * 1 + 1 * u.val = u.val; rw [e1]; omega

/-! ## What a point computes, in the arrays' rows -/

/-- A numerator the body forms at point `t` is the numerator of the array row against the key row. -/
theorem num_point (c : Dev nD) (t : Fin cfg0.N) (a : Fin 256) (j : Fin 4096) :
    k0_pay1 (iblk m c 0 t) (iblk m c 1 t) (iblk m c 3 t) (ix2 a j)
      = num (lq m c) (pk m c) (fun j => ent m c (ix2 (0 : Fin 1) j)) (row t a) j := by
  refine (numerator_apply (iblk m c 0 t) (iblk m c 1 t) (iblk m c 3 t) a j).trans ?_
  unfold num
  refine congr (congrArg HSub.hSub (blk3_apply m c t j)) (Finset.sum_congr rfl fun d _ => ?_)
  exact congr (congrArg HMul.hMul (blk0_apply m c t a d)) (blk1_apply m c t j d)

/-- The positive part the body stores at point `t`, row `a`, is `posK` of the array row. -/
theorem pos_point (c : Dev nD) (t : Fin cfg0.N) (a : Fin 256) (u : Fin 1) :
    k0_pay4 (iblk m c 0 t) (iblk m c 1 t) (iblk m c 3 t) (iblk m c 2 t) (iblk m c 4 t) (ix2 a u)
      = posK (lq m c) (pk m c) (lab m c) (fun j => ent m c (ix2 (0 : Fin 1) j)) (kld m c (ix2 (row t a) u)) (row t a) := by
  refine (positive_apply (iblk m c 0 t) (iblk m c 1 t) (iblk m c 3 t) (iblk m c 2 t) (iblk m c 4 t) a u).trans ?_
  unfold posK
  refine congr (congrArg HAdd.hAdd (blk4_apply m c t a u)) (congrArg (· * _) (Finset.sum_congr rfl fun j _ => ?_))
  exact congr (congrArg HMul.hMul (num_point m c t a j)) (blk2_apply m c t a j)

/-- The negative part the body stores at point `t`, row `a`, is `negK` of the array row. -/
theorem neg_point (c : Dev nD) (t : Fin cfg0.N) (a : Fin 256) (u : Fin 1) :
    k0_pay3 (iblk m c 0 t) (iblk m c 1 t) (iblk m c 3 t) (iblk m c 2 t) (ix2 a u)
      = negK (lq m c) (pk m c) (lab m c) (fun j => ent m c (ix2 (0 : Fin 1) j)) (row t a) := by
  refine (negative_apply (iblk m c 0 t) (iblk m c 1 t) (iblk m c 3 t) (iblk m c 2 t) a u).trans ?_
  unfold negK
  refine congrArg (· * _) (congr (congrArg HSub.hSub (Finset.sum_congr rfl fun j _ => num_point m c t a j))
    (Finset.sum_congr rfl fun j _ => ?_))
  exact congr (congrArg HMul.hMul (num_point m c t a j)) (blk2_apply m c t a j)

/-- The same at any index of the block and the array index it is written to. -/
theorem pos_point' (c : Dev nD) (t : Fin cfg0.N) (y : S256x1.Idx) (i : S4096x1.Idx)
    (h0 : (i 0).val = 256 * t.val + (y 0).val) (h1 : (i 1).val = (y 1).val) :
    k0_pay4 (iblk m c 0 t) (iblk m c 1 t) (iblk m c 3 t) (iblk m c 2 t) (iblk m c 4 t) y = posArr m c i := by
  obtain ⟨a, u, rfl⟩ : ∃ (a : Fin 256) (u : Fin 1), y = ix2 a u := ⟨y 0, y 1, eq_ix2 y⟩
  obtain ⟨r, v, rfl⟩ : ∃ (r : Fin 4096) (v : Fin 1), i = ix2 r v := ⟨i 0, i 1, eq_ix2 i⟩
  obtain rfl : r = row t a := Fin.ext h0
  obtain rfl : v = u := Fin.ext h1
  exact pos_point m c t a v

theorem neg_point' (c : Dev nD) (t : Fin cfg0.N) (y : S256x1.Idx) (i : S4096x1.Idx)
    (h0 : (i 0).val = 256 * t.val + (y 0).val) (h1 : (i 1).val = (y 1).val) :
    k0_pay3 (iblk m c 0 t) (iblk m c 1 t) (iblk m c 3 t) (iblk m c 2 t) y = negArr m c i := by
  obtain ⟨a, u, rfl⟩ : ∃ (a : Fin 256) (u : Fin 1), y = ix2 a u := ⟨y 0, y 1, eq_ix2 y⟩
  obtain ⟨r, v, rfl⟩ : ∃ (r : Fin 4096) (v : Fin 1), i = ix2 r v := ⟨i 0, i 1, eq_ix2 i⟩
  obtain rfl : r = row t a := Fin.ext h0
  exact neg_point m c t a u

/-! ## What a point writes back -/

/-- Point `t` writes back its block of the positive column. -/
theorem flushed5_eq (c : Dev nD) (t : Fin cfg0.N) :
    (dats m 0 c).flushed 5 t = ((cfg0.win 5).blk t).view.read (Elt Ideal) (posArr m c) := by
  show (cfg0.win 5).cut (grid0.coords t) ((dats m 0 c).after 5 t) = _
  rw [after0_5]
  unfold out0_5
  rw [View.canon_unit_zero hz]
  simp only [View.ld_unit_zero (S := S256x1024) hz, View.ld_unit_zero (S := S4096x1024) hz,
    View.ld_unit_zero (S := S1x4096) hz, View.ld_unit_zero (S := S256x4096) hz, View.ld_unit_zero (S := S256x1) hz]
  obtain ⟨-, -, -, -, -, -, -, -, -, -, e0, e1, -⟩ := idx_facts t
  funext y
  show k0_pay4 (iblk m c 0 t) (iblk m c 1 t) (iblk m c 3 t) (iblk m c 2 t) (iblk m c 4 t) y
      = posArr m c (((cfg0.win 5).blk t).view.emb y)
  refine pos_point' m c t y _ ?_ ?_
  · show win0_5.index t 0 * 256 + 1 * (y 0).val = 256 * t.val + (y 0).val; rw [e0]; omega
  · show win0_5.index t 1 * 1 + 1 * (y 1).val = (y 1).val; rw [e1]; omega

/-- Point `t` writes back its block of the negative column. -/
theorem flushed6_eq (c : Dev nD) (t : Fin cfg0.N) :
    (dats m 0 c).flushed 6 t = ((cfg0.win 6).blk t).view.read (Elt Ideal) (negArr m c) := by
  show (cfg0.win 6).cut (grid0.coords t) ((dats m 0 c).after 6 t) = _
  rw [after0_6]
  unfold out0_6
  rw [View.canon_unit_zero hz]
  simp only [View.ld_unit_zero (S := S256x1024) hz, View.ld_unit_zero (S := S4096x1024) hz,
    View.ld_unit_zero (S := S1x4096) hz, View.ld_unit_zero (S := S256x4096) hz]
  obtain ⟨-, -, -, -, -, -, -, -, -, -, -, -, e0, e1⟩ := idx_facts t
  funext y
  show k0_pay3 (iblk m c 0 t) (iblk m c 1 t) (iblk m c 3 t) (iblk m c 2 t) y
      = negArr m c (((cfg0.win 6).blk t).view.emb y)
  refine neg_point' m c t y _ ?_ ?_
  · show win0_6.index t 0 * 256 + 1 * (y 0).val = 256 * t.val + (y 0).val; rw [e0]; omega
  · show win0_6.index t 1 * 1 + 1 * (y 1).val = (y 1).val; rw [e1]; omega

/-! ## The blocks cover the columns -/

/-- An index of the positive column is in point `t`'s block iff each coordinate is in the block's range. -/
theorem mem_blk5 (t : Fin cfg0.N) (i : S4096x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v13_0).slice (win0_5.rect t)).set ↔ _
  rw [View.set_slice_whole, Rect.mem_set_unit]
  exact Iff.rfl

theorem mem_blk6 (t : Fin cfg0.N) (i : S4096x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v13_1).slice (win0_6.rect t)).set ↔ _
  rw [View.set_slice_whole, Rect.mem_set_unit]
  exact Iff.rfl

/-- Row `r` of the positive column lies in the block of point `r / 256`. -/
theorem cover5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t 0 * 256 ≤ (i 0).val ∧ (i 0).val < win0_5.index t 0 * 256 + 256; rw [e0]; omega
  | ⟨1, _⟩ => show win0_5.index t 1 * 1 ≤ (i 1).val ∧ (i 1).val < win0_5.index t 1 * 1 + 1; rw [e1]; omega

theorem cover6 (i : S4096x1.Idx) :
    ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t 0 * 256 ≤ (i 0).val ∧ (i 0).val < win0_6.index t 0 * 256 + 256; rw [e0]; omega
  | ⟨1, _⟩ => show win0_6.index t 1 * 1 ≤ (i 1).val ∧ (i 1).val < win0_6.index t 1 * 1 + 1; rw [e1]; omega

/-! ## The columns after the region -/

/-- After the region the first result array is the positive column. -/
theorem final5 (c : Dev nD) : (dats m 0 c).arrAt 5 cfg0.N = posArr m c :=
  (dats m 0 c).arrAt_eq_of_cover 5 (posArr m c) (fun t _ => flushed5_eq m c t) cover5

/-- After the region the second result array is the negative column. -/
theorem final6 (c : Dev nD) : (dats m 0 c).arrAt 6 cfg0.N = negArr m c :=
  (dats m 0 c).arrAt_eq_of_cover 6 (negArr m c) (fun t _ => flushed6_eq m c t) cover6

end Cert.KernelIdeal.Arrays

end
-- ==== Proof.KernelRun.lean ====
/-
  The kernel program's run, with its result named.

  Before the region the host lines compute `log q` and `log p`, the keys' entropy terms `∑ d, p · log p`, the
  queries' divergence means `(∑ d, p · (log p − log q)) / 1024`, narrow `log q` and `p` (no change of value here),
  and lay the entropy terms out as a row and the means as a column. After the region they read the two columns back
  as vectors, divide the positive parts by the negative parts entry by entry, and sum the quotients.
-/
import proofs.«171668_j17008070493058_1_alg».proof.Proof.KernelArrays
import Idealize.ShloMosaic.Lib.StableHlo.Run

set_option maxRecDepth 16384

noncomputable section

open scoped BigOperators

namespace Cert.KernelIdeal.Arrays

open Cert.KernelIdeal Cert.KernelIdeal.Gen Cert.KernelIdeal.Block
open Idealize.ShloMosaic Idealize.ShloMosaic.TcCoe Idealize.SL.Sem Idealize.ShloMosaic.ValueIdx KlRow
open Idealize.ShloMosaic.Pipeline (Dat)

variable (m : (ℓ : Loc nD τ sig) → Buf (Elt Ideal) ℓ) (ρ : Dev nD → PrngReg)

/-! ## The arrays the region is entered with, as terms of the inputs -/

/-- The first input, `q`. -/
abbrev qIn (c : Dev nD) : FVec Ideal S4096x1024 .f32 := m ((c.tc : Thread nD τ).loc main_arg0)
/-- The second input, `p`. -/
abbrev pIn (c : Dev nD) : FVec Ideal S4096x1024 .f32 := m ((c.tc : Thread nD τ).loc main_arg1)
/-- The third input, the label matrix. -/
abbrev labIn (c : Dev nD) : FVec Ideal S4096x4096 .f32 := m ((c.tc : Thread nD τ).loc main_arg2)

/-- The keys' entropy terms as the host computes them. -/
def entTerm (p : FVec Ideal S4096x1024 .f32) : FVec Ideal S4096 .f32 :=
  Host.reduceAdd (F := Ideal) (mulf p (Host.log (F := Ideal) p)) (constant (F := Ideal) S_ .f32 0x00000000#32) reducesTo_S4096x1024_S4096_d1 h_S_

/-- The queries' divergence means as the host computes them. -/
def klTerm (q p : FVec Ideal S4096x1024 .f32) : FVec Ideal S4096 .f32 :=
  Host.divf (F := Ideal)
    (Host.reduceAdd (F := Ideal) (mulf p (subf (Host.log (F := Ideal) p) (Host.log (F := Ideal) q))) (constant (F := Ideal) S_ .f32 0x00000000#32) reducesTo_S4096x1024_S4096_d1 h_S_)
    (broadcastInDim S4096 ![] bcast_S_S4096 (constant (F := Ideal) S_ .f32 0x44800000#32))

theorem lq_eq (c : Dev nD) : lq m c = truncf .bf16 (Host.log (F := Ideal) (qIn m c)) bitsLt_bf16_f32 := by
  show StableHlo.after hostOps0 (fun b => m (c, b)) (Proc.devRef .tc main_v9) = _
  after_results

theorem pk_eq (c : Dev nD) : pk m c = truncf .bf16 (pIn m c) bitsLt_bf16_f32 := by
  show StableHlo.after hostOps0 (fun b => m (c, b)) (Proc.devRef .tc main_v10) = _
  after_results

theorem lab_eq (c : Dev nD) : lab m c = labIn m c := V_main_arg2 m c

theorem ent_eq (c : Dev nD) : ent m c = shapeCast S1x4096 (entTerm (pIn m c)) shapeCasts_S4096_S1x4096 := by
  show StableHlo.after hostOps0 (fun b => m (c, b)) (Proc.devRef .tc main_v11) = _
  after_results
  rfl

theorem kld_eq (c : Dev nD) : kld m c = shapeCast S4096x1 (klTerm (qIn m c) (pIn m c)) shapeCasts_S4096_S4096x1 := by
  show StableHlo.after hostOps0 (fun b => m (c, b)) (Proc.devRef .tc main_v12) = _
  after_results
  rfl

/-! ## The lines after the region -/

/-- The program's result from the two columns. -/
def resultOf (pos neg : FVec Ideal S4096x1 .f32) : FVec Ideal S_ .f32 :=
  Host.reduceAdd (F := Ideal)
    (Host.divf (F := Ideal) (shapeCast S4096 pos shapeCasts_S4096x1_S4096) (shapeCast S4096 neg shapeCasts_S4096x1_S4096))
    (constant (F := Ideal) S_ .f32 0x00000000#32) reducesTo_S4096_S_d0 h_S_

theorem tail_eq (c : Dev nD) :
    Pipeline.afterTail₀ cfgs (dats m) 0 (V0 m) [hostOps1] c main_v17 = resultOf (posArr m c) (negArr m c) := by
  unfold Pipeline.afterTail₀
  show StableHlo.after hostOps1 _ (Proc.devRef .tc main_v17) = _
  after_results
  have h5 : Pipeline.withArrays (cfgs 0).spec c (V0 m c) (fun w => (dats m 0 c).arrAt w (cfgs 0).N) (Proc.tc.devRef main_v13_0)
      = posArr m c :=
    (Pipeline.withArrays_arr spec0 launch0.win.arr_inj c _ _ 5).trans (final5 m c)
  have h6 : Pipeline.withArrays (cfgs 0).spec c (V0 m c) (fun w => (dats m 0 c).arrAt w (cfgs 0).N) (Proc.tc.devRef main_v13_1)
      = negArr m c :=
    (Pipeline.withArrays_arr spec0 launch0.win.arr_inj c _ _ 6).trans (final6 m c)
  rw [h5, h6]
  rfl

/-! ## The run -/

/-- Every weakly fair execution of the kernel program terminates with its result at `resultOf` of the two columns
    and its three inputs unchanged. -/
theorem run : θ_run defs (onTc (τ := τ) (main (F := Ideal))) ⟨m, fun _ => 0, ρ⟩ (fun r => ∀ c : Dev nD,
      r.2.mem ((c.tc : Thread nD τ).loc main_v17) = resultOf (posArr m c) (negArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Arrays

end
-- ==== Proof.RefRows.lean ====
/-
  The reference, one query row at a time.

  The reference forms the whole 4096 × 4096 matrix of divergences: the keys' entropy terms broadcast down the
  rows, less `log q` times the transpose of `p`, each entry divided by `1024`. Entry `(r, j)` of the difference
  is the numerator of query row `r` against key row `j`; `positive r` adds to the row's divergence mean the sum
  over `j` of the divided numerator times the label, and `negative r` sums the divided numerator times one less
  the label. These are `posR` and `negR` of the arrays the reference builds.
-/
import proofs.«171668_j17008070493058_1_alg».proof.Proof.Gen.ReferenceIdeal.Read
import proofs.«171668_j17008070493058_1_alg».proof.Proof.Spec

noncomputable section

open scoped BigOperators

namespace Cert.ReferenceIdeal.Rows

open Cert.ReferenceIdeal Cert.ReferenceIdeal.Read Idealize.ShloMosaic Idealize.ShloMosaic.ValueIdx KlRow

variable (x0 x1 : FVec Ideal S4096x1024 .f32) (x2 : FVec Ideal S4096x4096 .f32)

/-- The keys' entropy terms, by key row. -/
abbrev entRow (j : Fin 4096) : EReal := val_main_v8 (F := Ideal) x1 (ix1 j)

/-- Entry `(r, j)` of the broadcast entropy terms less the product is the numerator of row `r` against key `j`:
    the product's entry contracts row `r` of `log q` with column `j` of the transpose of `p`, which is row `j` of `p`. -/
theorem numer_apply (r j : Fin 4096) :
    val_main_v13 (F := Ideal) x0 x1 (ix2 r j) = num (val_main_v0 (F := Ideal) x0) x1 (entRow x1) r j := by
  rw [val_main_v13_apply, val_main_v12_apply, val_main_v11_apply, val_main_v10_apply]
  unfold num
  have e1 : idx_main_v11 (idx_main_v12 (ix2 r j)) = ix1 j :=
    funext fun a => Fin.ext (by match a with | ⟨0, _⟩ => rfl)
  have e2 : ∀ k : Fin 1024, lidx_main_v10 (ix2 r j) k = ix2 r k := fun k =>
    funext fun a => Fin.ext (by match a with | ⟨0, _⟩ => rfl | ⟨1, _⟩ => rfl)
  have e3 : ∀ k : Fin 1024, idx_main_v9 (ridx_main_v10 (ix2 r j) k) = ix2 j k := fun k =>
    funext fun a => Fin.ext (by match a with | ⟨0, _⟩ => rfl | ⟨1, _⟩ => rfl)
  rw [e1]
  refine congrArg (val_main_v8 (F := Ideal) x1 (ix1 j) - ·) (Finset.sum_congr rfl fun k _ => ?_)
  rw [e2 k, val_main_v9_apply, e3 k]

/-- Entry `(r, j)` of the divided matrix is the numerator over `1024`. -/
theorem divided_apply (r j : Fin 4096) :
    val_main_v15 (F := Ideal) x0 x1 (ix2 r j)
      = Ideal.div (num (val_main_v0 (F := Ideal) x0) x1 (entRow x1) r j) (Ideal.ofBits .f32 0x44800000#32) := by
  rw [val_main_v15_apply, val_main_v14_apply, val_main_cst_2_apply, numer_apply]
  rfl

/-- Row `r` of the reference's `positive`. -/
theorem positive_apply (r : Fin 4096) :
    val_main_v18 (F := Ideal) x0 x1 x2 (ix1 r)
      = posR (val_main_v0 (F := Ideal) x0) x1 x2 (entRow x1) (val_main_v6 (F := Ideal) x0 x1 (ix1 r)) r := by
  rw [val_main_v18_apply, val_main_v17_apply, val_main_cst_3_apply]
  unfold posR
  refine congrArg (val_main_v6 (F := Ideal) x0 x1 (ix1 r) + ·) (congrArg (Ideal.ofBits .f32 0x00000000#32 + ·)
    (Finset.sum_congr rfl fun j _ => ?_))
  have e : idx_main_v17 (ix1 r) j = ix2 r j :=
    funext fun a => Fin.ext (by match a with | ⟨0, _⟩ => rfl | ⟨1, _⟩ => rfl)
  rw [e, val_main_v16_apply, divided_apply]
  rfl

/-- Row `r` of the reference's `negative`. -/
theorem negative_apply (r : Fin 4096) :
    val_main_v22 (F := Ideal) x0 x1 x2 (ix1 r) = negR (val_main_v0 (F := Ideal) x0) x1 x2 (entRow x1) r := by
  rw [val_main_v22_apply, val_main_cst_5_apply]
  unfold negR
  refine congrArg (Ideal.ofBits .f32 0x00000000#32 + ·) (Finset.sum_congr rfl fun j _ => ?_)
  have e : idx_main_v22 (ix1 r) j = ix2 r j :=
    funext fun a => Fin.ext (by match a with | ⟨0, _⟩ => rfl | ⟨1, _⟩ => rfl)
  rw [e, val_main_v21_apply, divided_apply, val_main_v20_apply, val_main_v19_apply, val_main_cst_4_apply]
  rfl

end Cert.ReferenceIdeal.Rows

end
-- ==== Proof.Bridge.lean ====
/-
  The two programs compute one number.

  Both end by dividing each query row's positive part by its negative part and summing the 4096 quotients, so it is
  enough that the rows' positive parts agree and the rows' negative parts agree. The kernel's come from the arrays
  the region is entered with; narrowing `log q` and `p` changes no value, the row of entropy terms and the column of
  divergence means hold the host's vectors entry for entry, and the host lines that build them are the reference's
  own. What is left is the row law: it needs every numerator and every label real, and they are, because the
  precondition makes `q` and `p` arrays of positive reals (so their logarithms are real) and the labels real.
-/
import proofs.«171668_j17008070493058_1_alg».proof.Proof.KernelRun
import proofs.«171668_j17008070493058_1_alg».proof.Proof.RefRows

noncomputable section

open scoped BigOperators

namespace KlRow

/-- `posK` of equal arrays is equal. -/
theorem posK_congr {lq lq' pk pk' : SRows.Idx → EReal} {lab lab' : SPairs.Idx → EReal} {e e' : Fin 4096 → EReal}
    {k k' : EReal} (h1 : lq = lq') (h2 : pk = pk') (h3 : lab = lab') (h4 : e = e') (h5 : k = k') (r : Fin 4096) :
    posK lq pk lab e k r = posK lq' pk' lab' e' k' r := by
  subst h1 h2 h3 h4 h5; rfl

/-- `negK` of equal arrays is equal. -/
theorem negK_congr {lq lq' pk pk' : SRows.Idx → EReal} {lab lab' : SPairs.Idx → EReal} {e e' : Fin 4096 → EReal}
    (h1 : lq = lq') (h2 : pk = pk') (h3 : lab = lab') (h4 : e = e') (r : Fin 4096) :
    negK lq pk lab e r = negK lq' pk' lab' e' r := by
  subst h1 h2 h3 h4; rfl

end KlRow

namespace Cert.KernelIdeal.Arrays

open Cert.KernelIdeal Cert.KernelIdeal.Gen
open Idealize.ShloMosaic Idealize.ShloMosaic.TcCoe Idealize.SL.Sem Idealize.ShloMosaic.ValueIdx KlRow RealValued

variable (m : (ℓ : Loc nD τ sig) → Buf (Elt Ideal) ℓ)

/-- As the region finds it, `log q` is the host's logarithm of the first input: narrowing keeps every value. -/
theorem lq_log (c : Dev nD) : lq m c = Host.log (F := Ideal) (qIn m c) :=
  (lq_eq m c).trans (funext fun i => rfl)

/-- As the region finds it, `p` is the second input. -/
theorem pk_in (c : Dev nD) : pk m c = pIn m c :=
  (pk_eq m c).trans (funext fun i => rfl)

/-- The row of entropy terms holds the host's vector of entropy terms. -/
theorem ent_row (c : Dev nD) :
    (fun j : Fin 4096 => ent m c (ix2 (0 : Fin 1) j)) = fun j => entTerm (pIn m c) (ix1 j) :=
  funext fun j => (congrFun (ent_eq m c) (ix2 (0 : Fin 1) j)).trans (shapeCast_a_1a_apply _ _ 0 j)

/-- The column of divergence means holds the host's vector of divergence means. -/
theorem kld_col (c : Dev nD) (r : Fin 4096) (u : Fin 1) :
    kld m c (ix2 r u) = klTerm (qIn m c) (pIn m c) (ix1 r) :=
  (congrFun (kld_eq m c) (ix2 r u)).trans (shapeCast_a_a1_apply _ _ r u)

/-- The rows' positive parts, and the rows' negative parts, are the reference's. -/
theorem columns_eq (c : Dev nD) (hq : IsPos (qIn m c)) (hp : IsPos (pIn m c)) (hL : IsReal (labIn m c)) :
    shapeCast S4096 (posArr m c) shapeCasts_S4096x1_S4096
        = Cert.ReferenceIdeal.Read.val_main_v18 (F := Ideal) (qIn m c) (pIn m c) (labIn m c)
    ∧ shapeCast S4096 (negArr m c) shapeCasts_S4096x1_S4096
        = Cert.ReferenceIdeal.Read.val_main_v22 (F := Ideal) (qIn m c) (pIn m c) (labIn m c) := by
  have hlq : IsReal (Host.log (F := Ideal) (qIn m c)) := isReal_hostLog hq
  have hpk : IsReal (pIn m c) := hp.isReal
  have hent : IsReal (entTerm (pIn m c)) :=
    isReal_hostReduceAdd _ _ (isReal_mulf hp.isReal (isReal_hostLog hp)) isReal_const_zero
  have he : IsReal (fun j : Fin 4096 => entTerm (pIn m c) (ix1 j)) := fun j => hent _
  constructor
  · funext i
    obtain ⟨r, rfl⟩ : ∃ r : Fin 4096, i = ix1 r := ⟨i 0, eq_ix1 i⟩
    refine ((shapeCast_a1_a_apply _ _ r).trans ?_).trans
      (Cert.ReferenceIdeal.Rows.positive_apply (qIn m c) (pIn m c) (labIn m c) r).symm
    exact (posK_congr (lq_log m c) (pk_in m c) (lab_eq m c) (ent_row m c) (kld_col m c r 0) r).trans
      (posK_eq_posR hlq hpk hL he _ r)
  · funext i
    obtain ⟨r, rfl⟩ : ∃ r : Fin 4096, i = ix1 r := ⟨i 0, eq_ix1 i⟩
    refine ((shapeCast_a1_a_apply _ _ r).trans ?_).trans
      (Cert.ReferenceIdeal.Rows.negative_apply (qIn m c) (pIn m c) (labIn m c) r).symm
    exact (negK_congr (lq_log m c) (pk_in m c) (lab_eq m c) (ent_row m c) r).trans
      (negK_eq_negR hlq hpk hL he r)

/-- The kernel program's result is the reference's result of the same inputs. -/
theorem result_eq (c : Dev nD) (hq : IsPos (qIn m c)) (hp : IsPos (pIn m c)) (hL : IsReal (labIn m c)) :
    resultOf (posArr m c) (negArr m c)
      = Cert.ReferenceIdeal.Read.val_main_v24 (F := Ideal) (qIn m c) (pIn m c) (labIn m c) := by
  obtain ⟨h1, h2⟩ := columns_eq m c hq hp hL
  unfold resultOf
  rw [h1, h2]
  rfl

end Cert.KernelIdeal.Arrays

end
-- ==== Proof.lean ====
/-
  A pairwise divergence loss with a label matrix: the kernel program and the reference compute one number.

  Inputs: `q` and `p`, 4096 rows of 1024 features each, and a 4096 × 4096 label matrix. With
      `e j = ∑ d, p[j, d] · log p[j, d]`                          (a key row's entropy term),
      `k r = (∑ d, p[r, d] · (log p[r, d] − log q[r, d])) / 1024`   (a query row's divergence mean),
      `n r j = e j − ∑ d, log q[r, d] · p[j, d]`                   (the divergence numerator of `r` against `j`),
  the reference returns `∑ r, positive r / negative r` with
      `positive r = k r + ∑ j, (n r j / 1024) · l[r, j]`,   `negative r = ∑ j, (n r j / 1024) · (1 − l[r, j])`,
  while the kernel forms, per block of 256 query rows, `w r = ∑ j, n r j · l[r, j]` and stores
      `k r + w r · 2⁻¹⁰`   and   `((∑ j, n r j) − w r) · 2⁻¹⁰`,
  the host dividing and summing afterwards. Over real numbers the two pairs agree (a common factor moves across a
  finite sum; `∑ n − ∑ n·l = ∑ n·(1 − l)`); at an infinite numerator they need not. The precondition therefore asks,
  beside finite inputs, that `q` and `p` be greater than zero — the domain of the logarithm both programs take of
  them: then every logarithm, every entropy term and every numerator is a real number.

  The frames of the two kernel programs are the generated ones; the reference's frame is its generated run with the
  result dropped; nothing was rewritten when the kernel was idealized, so there is nothing to preserve. The
  equivalence puts the kernel's run (its result read off the two columns the region leaves) beside the reference's
  generated run, and joins them by the row law.
-/
import proofs.«171668_j17008070493058_1_alg».proof.Defs
import proofs.«171668_j17008070493058_1_alg».proof.Proof.Gen.Kernel
import proofs.«171668_j17008070493058_1_alg».proof.Proof.Gen.Kernel.Skeleton
import proofs.«171668_j17008070493058_1_alg».proof.Proof.Gen.Kernel.Launch
import proofs.«171668_j17008070493058_1_alg».proof.Proof.Gen.Kernel.Points
import proofs.«171668_j17008070493058_1_alg».proof.Proof.Gen.Kernel.Frame
import proofs.«171668_j17008070493058_1_alg».proof.Proof.Gen.KernelIdeal
import proofs.«171668_j17008070493058_1_alg».proof.Proof.Gen.KernelIdeal.Skeleton
import proofs.«171668_j17008070493058_1_alg».proof.Proof.Gen.KernelIdeal.Launch
import proofs.«171668_j17008070493058_1_alg».proof.Proof.Gen.KernelIdeal.Points
import proofs.«171668_j17008070493058_1_alg».proof.Proof.Gen.KernelIdeal.Frame
import proofs.«171668_j17008070493058_1_alg».proof.Proof.Gen.ReferenceIdeal
import proofs.«171668_j17008070493058_1_alg».proof.Proof.Gen.Pre_finite_inputs
import proofs.«171668_j17008070493058_1_alg».proof.Proof.Gen.ReferenceIdeal.Run
import proofs.«171668_j17008070493058_1_alg».proof.Proof.Gen.ReferenceIdeal.Read
import proofs.«171668_j17008070493058_1_alg».proof.Proof.PreFacts
import proofs.«171668_j17008070493058_1_alg».proof.Proof.Bridge
import Idealize.ShloMosaic.Adequacy
import Idealize.ShloMosaic.Init

noncomputable section

namespace Cert.Proof

open Idealize.ShloMosaic Idealize.SL.Sem

/-- The word-level kernel program runs and keeps its inputs. -/
theorem frame_kernel : Cert.frame_Kernel := fun m ρ _ => Cert.Kernel.Gen.frame m ρ

/-- The idealized kernel program runs and keeps its inputs. -/
theorem frame_kernelIdeal : Cert.frame_KernelIdeal := fun m ρ _ => Cert.KernelIdeal.Gen.frame m ρ

/-- The reference runs and keeps its inputs: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree, both programs end at one number: the kernel's result read off its two columns, which
    under the precondition is the reference's result of the same inputs. -/
theorem algebraic : Cert.algebraic_KernelIdeal_ReferenceIdeal := by
  intro m ρ m' ρ' hpre hagree
  refine ⟨fun c => Cert.KernelIdeal.Arrays.resultOf (Cert.KernelIdeal.Arrays.posArr m c) (Cert.KernelIdeal.Arrays.negArr m c),
    Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq _ _ _).trans ?_
  rw [(hagree c).1, (hagree c).2.1, (hagree c).2.2]
  obtain ⟨hq, hp, hL⟩ := Cert.Pre_finite_inputs.Decode.of_pre _ _ _ (hpre c)
  exact (Cert.KernelIdeal.Arrays.result_eq m c hq hp hL).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
